-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : IVec S1048576 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  main_v3
-- ==== Kernel.lean ====
abbrev S1048576x128 : Shape := ⟨2, ![1048576, 128]⟩
abbrev S1048576 : Shape := ⟨1, ![1048576]⟩
abbrev S1x1048576 : Shape := ⟨2, ![1, 1048576]⟩
abbrev S2x256x128 : Shape := ⟨3, ![2, 256, 128]⟩
abbrev S2x256x1 : Shape := ⟨3, ![2, 256, 1]⟩
abbrev S8192x128 : Shape := ⟨2, ![8192, 128]⟩
abbrev S1x8192 : Shape := ⟨2, ![1, 8192]⟩
abbrev S1x256x128 : Shape := ⟨3, ![1, 256, 128]⟩
abbrev S1x256x1 : Shape := ⟨3, ![1, 256, 1]⟩
abbrev S256x128 : Shape := ⟨2, ![256, 128]⟩
abbrev S256x1 : Shape := ⟨2, ![256, 1]⟩
abbrev S256x8192 : Shape := ⟨2, ![256, 8192]⟩
abbrev S256 : Shape := ⟨1, ![256]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S1x1048576, .i32⟩
  | .hbm, ⟨3, _⟩ => ⟨S2x256x128, .f32⟩
  | .hbm, ⟨4, _⟩ => ⟨S2x256x1, .f32⟩
  | .hbm, ⟨5, _⟩ => ⟨S1x256x128, .f32⟩
  | .hbm, ⟨6, _⟩ => ⟨S256x128, .f32⟩
  | .hbm, ⟨7, _⟩ => ⟨S1x256x128, .f32⟩
  | .hbm, ⟨8, _⟩ => ⟨S256x128, .f32⟩
  | .hbm, ⟨9, _⟩ => ⟨S256x128, .f32⟩
  | .hbm, ⟨10, _⟩ => ⟨S1x256x1, .f32⟩
  | .hbm, ⟨11, _⟩ => ⟨S256x1, .f32⟩
  | .hbm, ⟨12, _⟩ => ⟨S1x256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x128, .f32⟩
  | .hbm, ⟨19, _⟩ => ⟨S256x128, .f32⟩
  | .local _ .vmem, ⟨0, _⟩ => ⟨S8192x128, .f32⟩
  | .local _ .vmem, ⟨1, _⟩ => ⟨S8192x128, .f32⟩
  | .local _ .vmem, ⟨2, _⟩ => ⟨S1x8192, .i32⟩
  | .local _ .vmem, ⟨3, _⟩ => ⟨S1x8192, .i32⟩
  | .local _ .vmem, ⟨4, _⟩ => ⟨S1x256x128, .f32⟩
  | .local _ .vmem, ⟨5, _⟩ => ⟨S1x256x128, .f32⟩
  | .local _ .vmem, ⟨6, _⟩ => ⟨S1x256x1, .f32⟩
  | .local _ .vmem, ⟨7, _⟩ => ⟨S1x256x1, .f32⟩
  | .local _ .vmem, ⟨8, _⟩ => ⟨S256x128, .f32⟩
  | .local _ .vmem, ⟨9, _⟩ => ⟨S256x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1048576_S1x1048576 : S1048576.ShapeCasts S1x1048576
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x8192_d0_w32 : S256x8192.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  natLt_1_32 : 1 < 32
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  reduces_S256x8192_S256 : S256x8192.Reduces [1] S256
  shapeCasts_S256_S256x1 : S256.ShapeCasts S256x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S2x256x128_S1x256x128_0_0_0 : S2x256x128.Slices ![0, 0, 0] S1x256x128
  slices_S2x256x128_S1x256x128_1_0_0 : S2x256x128.Slices ![1, 0, 0] S1x256x128
  slices_S2x256x1_S1x256x1_0_0_0 : S2x256x1.Slices ![0, 0, 0] S1x256x1
  slices_S2x256x1_S1x256x1_1_0_0 : S2x256x1.Slices ![1, 0, 0] S1x256x1
  bcast_S_S256x1 : S_.BroadcastsInDim S256x1 (![] : Fin 0 → Fin S256x1.rank)
  bcast_S256x1_S256x128_0_1 : S256x1.BroadcastsInDim S256x128 (![0, 1] : Fin 2 → Fin S256x128.rank)
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x1048576.size a
  hwx0_1 : ∀ i : grid0.Coords, EltTy.bits .i32 = 32 ∨ (Rect.block (s := S1x1048576) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S2x256x128.size a
  hwx0_2 : ∀ i : grid0.Coords, EltTy.bits .f32 = 32 ∨ (Rect.block (s := S2x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1048576x128 : Shape := ⟨2, ![1048576, 128]⟩
abbrev S1048576 : Shape := ⟨1, ![1048576]⟩
abbrev S_ : Shape := ⟨0, ![]⟩
abbrev S256x128 : Shape := ⟨2, ![256, 128]⟩
abbrev S1048576x1 : Shape := ⟨2, ![1048576, 1]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S_, .f32⟩
  | .hbm, ⟨3, _⟩ => ⟨S256x128, .f32⟩
  | .hbm, ⟨4, _⟩ => ⟨S1048576x1, .i32⟩
  | .hbm, ⟨5, _⟩ => ⟨S256x128, .f32⟩
  | .hbm, ⟨6, _⟩ => ⟨S_, .f32⟩
  | .hbm, ⟨7, _⟩ => ⟨S1048576, .f32⟩
  | .hbm, ⟨8, _⟩ => ⟨S_, .f32⟩
  | .hbm, ⟨9, _⟩ => ⟨S256, .f32⟩
  | .hbm, ⟨10, _⟩ => ⟨S1048576x1, .i32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x128, .f32⟩
  | .hbm, ⟨17, _⟩ => ⟨S256x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S256x128_S1048576x1_S1048576x128_1_0_0_1_wf : ScatterDims.WF S256x128 S1048576x1 S1048576x128 [1] [0] [0] 1
  scatter_S256_S1048576x1_S1048576_n_0_0_1_wf : ScatterDims.WF S256 S1048576x1 S1048576 [] [0] [0] 1

variable [Facts₀]

def scatter_S256x128_S1048576x1_S1048576x128_1_0_0_1 : ScatterDims S256x128 S1048576x1 S1048576x128 where
  updateWindowDims := [1]
  insertedWindowDims := [0]
  scatterDimsToOperandDims := [0]
  indexVectorDim := 1
  wf := scatter_S256x128_S1048576x1_S1048576x128_1_0_0_1_wf
def scatter_S256_S1048576x1_S1048576_n_0_0_1 : ScatterDims S256 S1048576x1 S1048576 where
  updateWindowDims := []
  insertedWindowDims := [0]
  scatterDimsToOperandDims := [0]
  indexVectorDim := 1
  wf := scatter_S256_S1048576x1_S1048576_n_0_0_1_wf

class Facts : Prop extends Facts₀ where

variable [Facts]
-- ==== Proof.Pieces.lean ====
/-
  What each of the body's three cases leaves behind, as values of what it found.

  Case A (the first tile of a core): the accumulators are reset to zero and the tile's contribution is added, so each
  ends at the update of zero. Case B (a middle tile): each accumulator ends at its update of what the point before
  left. Case C (the last tile of a core): the same update, and the two outputs' staging buffers receive the updated
  accumulators under a leading unit axis. The update's two loads read the accumulator whole, so what was stored is
  the update of the whole previous contents.
-/
import proofs.«425436_j3779571220815_2_alg».proof.Proof.Gen.KernelIdeal.Frame
import Idealize.ShloMosaic.Lib.Pipeline.Value
import Idealize.ShloMosaic.Lib.Tactic

set_option maxRecDepth 16384

noncomputable section

namespace Cert.KernelIdeal.SegMean

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile -/

theorem sums_B (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : ¬cond0_0 i) (hc1 : ¬cond0_1 i)
    (x0 : Vec F S8192x128 .f32) (x1 : Vec F S1x8192 .i32) (xs0 : Vec F S256x128 .f32) (xs1 : Vec F S256x1 .f32) :
    sout0_B_0 c i arg2 harg2 arg3 harg3 arg4 harg4 arg5 harg5 arg6 harg6 arg7 harg7 hc0 hc1 x0 x1 xs0 xs1 = k0_pay4 x1 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

theorem counts_B (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : ¬cond0_0 i) (hc1 : ¬cond0_1 i)
    (x0 : Vec F S8192x128 .f32) (x1 : Vec F S1x8192 .i32) (xs0 : Vec F S256x128 .f32) (xs1 : Vec F S256x1 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

/-! ## The last tile of a core -/

theorem sums_C (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : ¬cond0_0 i) (hc1 : cond0_1 i)
    (x0 : Vec F S8192x128 .f32) (x1 : Vec F S1x8192 .i32) (xs0 : Vec F S256x128 .f32) (xs1 : Vec F S256x1 .f32) :
    sout0_C_0 c i arg2 harg2 arg3 harg3 arg4 harg4 arg5 harg5 arg6 harg6 arg7 harg7 hc0 hc1 x0 x1 xs0 xs1 = k0_pay4 x1 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

theorem counts_C (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : ¬cond0_0 i) (hc1 : cond0_1 i)
    (x0 : Vec F S8192x128 .f32) (x1 : Vec F S1x8192 .i32) (xs0 : Vec F S256x128 .f32) (xs1 : Vec F S256x1 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

theorem out_sums_C (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : ¬cond0_0 i) (hc1 : cond0_1 i)
    (x0 : Vec F S8192x128 .f32) (x1 : Vec F S1x8192 .i32) (xs0 : Vec F S256x128 .f32) (xs1 : Vec F S256x1 .f32) :
    out0_C_2 c i arg2 harg2 arg3 harg3 arg4 harg4 arg5 harg5 arg6 harg6 arg7 harg7 hc0 hc1 x0 x1 xs0 xs1 = k0_pay6 (k0_pay4 x1 x0 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, View.readCov_unit_zero (S := S256x128) _ hz2, View.readCov_unit_zero (S := S256x1) _ hz2, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

theorem out_counts_C (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : ¬cond0_0 i) (hc1 : cond0_1 i)
    (x0 : Vec F S8192x128 .f32) (x1 : Vec F S1x8192 .i32) (xs0 : Vec F S256x128 .f32) (xs1 : Vec F S256x1 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, View.readCov_unit_zero (S := S256x128) _ hz2, View.readCov_unit_zero (S := S256x1) _ hz2, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

/-! ## The first tile of a core -/

theorem sums_A (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : cond0_0 i) (hc1 : ¬cond0_1 i)
    (x0 : Vec F S8192x128 .f32) (x1 : Vec F S1x8192 .i32) :
    sout0_A_0 c i arg2 harg2 arg3 harg3 arg4 harg4 arg5 harg5 arg6 harg6 arg7 harg7 hc0 hc1 x0 x1 = k0_pay4 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S256x128) hz2, View.readCov_unit_zero (S := S256x128) _ hz2]
  simp only [View.readAt_eq_ld, harg2.read_unread, harg3.read_unread, harg4.read_unread, harg5.read_unread, harg6.read_unread, harg7.read_unread, View.readCov_unit_zero (S := S256x128) _ hz2, View.readCov_unit_zero (S := S256x1) _ hz2, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

theorem counts_A (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1x256x128 .f32) (harg4 : arg4.IsWhole) (arg5 : Memref sig .tc .vmem S1x256x1 .f32) (harg5 : arg5.IsWhole) (arg6 : Memref sig .tc .vmem S256x128 .f32) (harg6 : arg6.IsWhole) (arg7 : Memref sig .tc .vmem S256x1 .f32) (harg7 : arg7.IsWhole) (hc0 : cond0_0 i) (hc1 : ¬cond0_1 i)
    (x0 : Vec F S8192x128 .f32) (x1 : Vec F S1x8192 .i32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread, View.readCov_unit_zero (S := S256x128) _ hz2, View.readCov_unit_zero (S := S256x1) _ hz2, View.ld_unit_zero (S := S256x128) hz2, View.ld_unit_zero (S := S256x1) hz2, View.ld_unit_zero (S := S8192x128) hz2, View.ld_unit_zero (S := S1x8192) hz2, View.ld_unit_zero (S := S1x256x128) hz3, View.ld_unit_zero (S := S1x256x1) hz3]

end Cert.KernelIdeal.SegMean

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.LibSegmentScatter.lean ====
/-
  A scatter-add of rows by a column of row ids (the dimension numbers of a segment sum), read at an index at the
  exact values: element (s, c) of the result is the operand there plus the sum, over the rows r whose id, read as a
  signed integer, is s, of the update at (r, c). A row whose id is negative or beyond the operand's rows lands
  nowhere and contributes nothing. The one-axis form (a vector scattered by ids into a vector) likewise.
-/
import Idealize.ShloMosaic.PureOps.Ideal
import Idealize.ShloMosaic.Lib.ValueIdx

namespace Cert.LibSegmentScatter

open Idealize.ShloMosaic Idealize.ShloMosaic.ValueIdx

variable {B N D w : ℕ}

/-! ## Rows of a matrix scattered by id -/

/-- The dimension numbers: update (r, c) goes to row id(r), column c. -/
abbrev rowsDims (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ := ⟨[1], [0], [0], 1, wf⟩

section rows
variable (wf : ScatterDims.WF ⟨2, ![B, D]⟩ ⟨2, ![N, 1]⟩ ⟨2, ![N, D]⟩ [1] [0] [0] 1)
  (j : (⟨2, ![N, D]⟩ : Shape).Idx) (idx : IVec ⟨2, ![N, 1]⟩ w)

/-- On the row axis the window starts at the id of the update's row, read signed. -/
theorem rows_start0 : (rowsDims wf).start j idx 0 = (idx (ix2 (j 0) (0 : Fin 1))).toInt := by
  unfold ScatterDims.start
  rw [dif_pos (by simp)]
  congr 2
  funext b
  match b with
  | ⟨0, _⟩ => rfl
  | ⟨1, _⟩ => rfl

/-- On the column axis it starts at zero. -/
theorem rows_start1 : (rowsDims wf).start j idx 1 = 0 := by
  unfold ScatterDims.start
  rw [dif_neg (by simp)]

/-- The row axis is inserted: no window coordinate. -/
theorem rows_window0 : (rowsDims wf).window j 0 = 0 := by
  unfold ScatterDims.window
  rw [dif_neg (by simp [ScatterDims.sKept, Shape.kept, List.mem_filter, List.mem_finRange])]

/-- The column axis carries the update's column. -/
theorem rows_window1 : (rowsDims wf).window j 1 = (j 1).val := by
  unfold ScatterDims.window
  rw [dif_pos (by simp [ScatterDims.sKept, Shape.kept, List.mem_filter, List.mem_finRange])]
  rfl

/-- Update (r, c) lands on (s, c') exactly when row r's signed id is s and c = c'. -/
theorem rows_resultIdx_iff (i : (⟨2, ![B, D]⟩ : Shape).Idx) :
    (rowsDims wf).resultIdx? j idx = some i
      ↔ (idx (ix2 (j 0) (0 : Fin 1))).toInt = ((i 0).val : ℤ) ∧ (j 1).val = (i 1).val := by
  have hB : (i 0).val < B := (i 0).isLt
  have hD : (j 1).val < D := (j 1).isLt
  unfold ScatterDims.resultIdx?
  split
  · rename_i h
    rw [Option.some.injEq]
    have h0 := (h 0).1
    rw [rows_start0, rows_window0] at h0
    constructor
    · intro e
      have e0 : ((rowsDims wf).start j idx 0 + ((rowsDims wf).window j 0 : ℕ)).toNat = (i 0).val :=
        congrArg (fun f => (f 0).val) e
      have e1 : ((rowsDims wf).start j idx 1 + ((rowsDims wf).window j 1 : ℕ)).toNat = (i 1).val :=
        congrArg (fun f => (f 1).val) e
      rw [rows_start0, rows_window0] at e0
      rw [rows_start1, rows_window1] at e1
      constructor <;> omega
    · rintro ⟨e0, e1⟩
      funext a
      match a with
      | ⟨0, _⟩ =>
        apply Fin.ext
        show ((rowsDims wf).start j idx 0 + ((rowsDims wf).window j 0 : ℕ)).toNat = (i 0).val
        rw [rows_start0, rows_window0]; omega
      | ⟨1, _⟩ =>
        apply Fin.ext
        show ((rowsDims wf).start j idx 1 + ((rowsDims wf).window j 1 : ℕ)).toNat = (i 1).val
        rw [rows_start1, rows_window1]; omega
  · rename_i h
    constructor
    · intro e; exact absurd e (by simp)
    · rintro ⟨e0, e1⟩
      exfalso; apply h
      intro a
      match a with
      | ⟨0, _⟩ =>
        show 0 ≤ (rowsDims wf).start j idx 0 + ((rowsDims wf).window j 0 : ℕ)
          ∧ (rowsDims wf).start j idx 0 + ((rowsDims wf).window j 0 : ℕ) < (B : ℤ)
        rw [rows_start0, rows_window0]; constructor <;> omega
      | ⟨1, _⟩ =>
        show 0 ≤ (rowsDims wf).start j idx 1 + ((rowsDims wf).window j 1 : ℕ)
          ∧ (rowsDims wf).start j idx 1 + ((rowsDims wf).window j 1 : ℕ) < (D : ℤ)
        rw [rows_start1, rows_window1]; constructor <;> omega

end rows

/-- The scatter-add of rows read at (s, c): the operand there plus the updates at column c of the rows whose id is s. -/
theorem rows_scatterAdd_apply (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (s : Fin B) (c : Fin D) :
    Ideal.hostScatterAdd (rowsDims wf) x idx upd (ix2 s c)
      = x (ix2 s c) + ∑ r : Fin N, if (idx (ix2 r (0 : Fin 1))).toInt = (s.val : ℤ) then upd (ix2 r c) else 0 := by
  unfold Ideal.hostScatterAdd
  congr 1
  rw [Finset.sum_filter, sum_idx2]
  refine Finset.sum_congr rfl fun r _ => ?_
  simp only [rows_resultIdx_iff]
  by_cases hr : (idx (ix2 r (0 : Fin 1))).toInt = (s.val : ℤ)
  · rw [if_pos hr, Finset.sum_eq_single c]
    · exact if_pos ⟨hr, rfl⟩
    · intro b _ hb
      exact if_neg fun h => hb (Fin.ext h.2)
    · intro h; exact absurd (Finset.mem_univ c) h
  · rw [if_neg hr]
    exact Finset.sum_eq_zero fun b _ => if_neg fun h => hr h.1

/-! ## A vector scattered by id -/

/-- The dimension numbers: update r goes to element id(r). -/
abbrev vecDims (wf : ScatterDims.WF ⟨1, ![B]⟩ ⟨2, ![N, 1]⟩ ⟨1, ![N]⟩ [] [0] [0] 1) :
    ScatterDims ⟨1, ![B]⟩ ⟨2, ![N, 1]⟩ ⟨1, ![N]⟩ := ⟨[], [0], [0], 1, wf⟩

section vec
variable (wf : ScatterDims.WF ⟨1, ![B]⟩ ⟨2, ![N, 1]⟩ ⟨1, ![N]⟩ [] [0] [0] 1)
  (j : (⟨1, ![N]⟩ : Shape).Idx) (idx : IVec ⟨2, ![N, 1]⟩ w)

theorem vec_start0 : (vecDims wf).start j idx 0 = (idx (ix2 (j 0) (0 : Fin 1))).toInt := by
  unfold ScatterDims.start
  rw [dif_pos (by simp)]
  congr 2
  funext b
  match b with
  | ⟨0, _⟩ => rfl
  | ⟨1, _⟩ => rfl

theorem vec_window0 : (vecDims wf).window j 0 = 0 := by
  unfold ScatterDims.window
  rw [dif_neg (by simp [ScatterDims.sKept, Shape.kept, List.mem_filter, List.mem_finRange])]

/-- Update r lands on element s exactly when r's signed id is s. -/
theorem vec_resultIdx_iff (i : (⟨1, ![B]⟩ : Shape).Idx) :
    (vecDims wf).resultIdx? j idx = some i ↔ (idx (ix2 (j 0) (0 : Fin 1))).toInt = ((i 0).val : ℤ) := by
  have hB : (i 0).val < B := (i 0).isLt
  unfold ScatterDims.resultIdx?
  split
  · rename_i h
    rw [Option.some.injEq]
    have h0 := (h 0).1
    rw [vec_start0, vec_window0] at h0
    constructor
    · intro e
      have e0 : ((vecDims wf).start j idx 0 + ((vecDims wf).window j 0 : ℕ)).toNat = (i 0).val :=
        congrArg (fun f => (f 0).val) e
      rw [vec_start0, vec_window0] at e0
      omega
    · intro e0
      funext a
      match a with
      | ⟨0, _⟩ =>
        apply Fin.ext
        show ((vecDims wf).start j idx 0 + ((vecDims wf).window j 0 : ℕ)).toNat = (i 0).val
        rw [vec_start0, vec_window0]; omega
  · rename_i h
    constructor
    · intro e; exact absurd e (by simp)
    · intro e0
      exfalso; apply h
      intro a
      match a with
      | ⟨0, _⟩ =>
        show 0 ≤ (vecDims wf).start j idx 0 + ((vecDims wf).window j 0 : ℕ)
          ∧ (vecDims wf).start j idx 0 + ((vecDims wf).window j 0 : ℕ) < (B : ℤ)
        rw [vec_start0, vec_window0]; constructor <;> omega

end vec

/-- A one-axis index is its one coordinate. -/
def idxEquiv1 {n : ℕ} : (⟨1, ![n]⟩ : Shape).Idx ≃ Fin n where
  toFun i := i 0
  invFun p := ix1 p
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The scatter-add of a vector read at s: the operand there plus the updates of the rows whose id is s. -/
theorem vec_scatterAdd_apply (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (s : Fin B) :
    Ideal.hostScatterAdd (vecDims wf) x idx upd (ix1 s)
      = x (ix1 s) + ∑ r : Fin N, if (idx (ix2 r (0 : Fin 1))).toInt = (s.val : ℤ) then upd (ix1 r) else 0 := by
  unfold Ideal.hostScatterAdd
  congr 1
  rw [Finset.sum_filter, sum_idx1]
  refine Finset.sum_congr rfl fun r _ => ?_
  simp only [vec_resultIdx_iff]
  rfl

/-! ## A word against a small natural number -/

/-- A 32-bit word equals the word of a natural number below 2^31 exactly when its signed value is that number. -/
theorem toInt_ofNat_small (s : ℕ) (hs : s < 2147483648) : (BitVec.ofNat 32 s).toInt = (s : ℤ) := by
  have hm : s % 2 ^ 32 = s := Nat.mod_eq_of_lt (by omega)
  rw [BitVec.toInt_eq_toNat_cond, BitVec.toNat_ofNat, hm, if_pos (by omega)]

theorem eq_ofNat_iff_toInt (x : BitVec 32) (s : ℕ) (hs : s < 2147483648) :
    x = BitVec.ofNat 32 s ↔ x.toInt = (s : ℤ) := by
  constructor
  · rintro rfl
    exact toInt_ofNat_small s hs
  · intro h
    apply BitVec.eq_of_toInt_eq
    rw [h, toInt_ofNat_small s hs]

end Cert.LibSegmentScatter
-- ==== Proof.Payload.lean ====
/-
  The kernel body's arithmetic, index by index, at the exact values.

  A tile is 8192 consecutive rows. For a segment s and a row k of the tile, the one-hot entry is 1 when the row's
  segment id, read as a signed integer, is s, and 0 otherwise (the body compares the id with the row number s of an
  iota, as words; a word equals the word of s < 256 exactly when its signed value is s). The matrix product of the
  one-hot (256 x 8192) with the tile (8192 x 128) is therefore, at (s, c), the sum of the tile's entries in column c
  over the rows whose id is s; the row sum of the one-hot at s is the number of those rows. Each is added to what the
  accumulator held. A change of float format is the identity on exact values.
-/
import proofs.«425436_j3779571220815_2_alg».proof.Proof.Gen.KernelIdeal.Skeleton
import proofs.«425436_j3779571220815_2_alg».proof.Proof.LibColumn
import proofs.«425436_j3779571220815_2_alg».proof.Proof.LibSegmentScatter
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SegMean

open Cert.KernelIdeal Cert.KernelIdeal.Gen Idealize.ShloMosaic Idealize.ShloMosaic.ValueIdx

/-! ## The one-hot entry -/

/-- The word comparison as a number: 1 where the words are equal, 0 where they are not. -/
theorem cmp_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  unfold IntOp.cmpi
  by_cases h : x = y
  · subst h
    simp
  · have hb : (x == y) = false := by simpa using h
    rw [if_neg h, hb]
    simp

/-- Entry (s, k) of the one-hot: 1 when row k's id is s, else 0. -/
theorem onehot_apply (v4 : Vec Ideal S1x8192 .i32) (s : Fin 256) (k : Fin 8192) :
    k0_pay3 (F := Ideal) v4 (ix2 s k) = if (v4 (ix2 (0 : Fin 1) k)).toInt = (s.val : ℤ) then 1 else 0 := by
  unfold k0_pay3
  dsimp only
  rw [sitofp_apply, extui_apply]
  show (FloatOps.sitofp (F := Ideal) .f32 ((IntOp.cmpi .eq
      (broadcastTo S256x8192 (shapeCast S1x8192 v4 shapeCasts_S1x8192_S1x8192) broadcasts_S1x8192_S256x8192 (ix2 s k))
      (iota .tc S256x8192 32 [0] iota_S256x8192_d0_w32 (ix2 s k))).setWidth 32) : EReal) = _
  rw [cmp_word, broadcastTo_1b_ab_apply, shapeCast_self, iota_single_apply]
  show (if v4 (ix2 (0 : Fin 1) k) = BitVec.ofNat 32 s.val then (1 : EReal) else 0) = _
  have hs : s.val < 2147483648 := by have := s.isLt; omega
  simp only [Cert.LibSegmentScatter.eq_ofNat_iff_toInt _ _ hs]

/-! ## The matrix product at an index

The contraction runs over the one-hot's column axis and the tile's row axis: at output index (s, c) and contraction
index k the operands are read at (s, k) and (k, c). -/

theorem lhs_dot_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide),
    dif_pos (show (0 : Fin S256x8192.rank) ∈ dot_S256x8192_S8192x128_S256x128_1_0_0_1_n_n.lhsNonContracting by decide)]
  rfl

theorem lhs_dot_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q

theorem rhs_dot_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q

theorem rhs_dot_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide),
    dif_pos (show (1 : Fin S8192x128.rank) ∈ dot_S256x8192_S8192x128_S256x128_1_0_0_1_n_n.rhsNonContracting by decide)]
  rfl

/-- The product into a zero accumulator, at (s, c): the sum over the tile's rows k of left (s, k) times right (k, c). -/
theorem matmul_zero_apply (a : FVec Ideal S256x8192 .bf16) (b : FVec Ideal S8192x128 .bf16) (s : Fin 256) (c : Fin 128) :
    matmul dot_S256x8192_S8192x128_S256x128_1_0_0_1_n_n none a b (constant S256x128 .f32 0x00000000#32) (ix2 s c)
      = ∑ k : Fin 8192, a (ix2 s k) * b (ix2 k c) := by
  simp only [matmul]
  rw [Ideal.matmul_constant_zero_apply,
    ← Equiv.sum_comp (contrEquiv1 dot_S256x8192_S8192x128_S256x128_1_0_0_1_n_n 8192 rfl rfl).symm]
  refine Finset.sum_congr rfl fun k _ => ?_
  have hk := contrEquiv1_symm_val dot_S256x8192_S8192x128_S256x128_1_0_0_1_n_n 8192 rfl rfl k
  have el : dot_S256x8192_S8192x128_S256x128_1_0_0_1_n_n.lhsIdx (ix2 s c)
      ((contrEquiv1 dot_S256x8192_S8192x128_S256x128_1_0_0_1_n_n 8192 rfl rfl).symm k) = ix2 s k :=
    funext fun ax => Fin.ext (by
      match ax with
      | ⟨0, _⟩ => exact lhs_dot_0 _ _
      | ⟨1, _⟩ => exact (lhs_dot_1 _ _).trans hk)
  have er : dot_S256x8192_S8192x128_S256x128_1_0_0_1_n_n.rhsIdx (ix2 s c)
      ((contrEquiv1 dot_S256x8192_S8192x128_S256x128_1_0_0_1_n_n 8192 rfl rfl).symm k) = ix2 k c :=
    funext fun ax => Fin.ext (by
      match ax with
      | ⟨0, _⟩ => exact (rhs_dot_0 _ _).trans hk
      | ⟨1, _⟩ => exact rhs_dot_1 _ _)
  rw [el, er]

/-! ## The stores' values -/

/-- What the body leaves in the sums accumulator holding `acc`: `acc` plus, at (s, c), the tile's entries in column c
    over the rows whose id is s. -/
theorem sums_apply (v4 : Vec Ideal S1x8192 .i32) (v10 : Vec Ideal S8192x128 .f32) (acc : Vec Ideal S256x128 .f32)
    (s : Fin 256) (c : Fin 128) :
    k0_pay4 (F := Ideal) v4 v10 acc (ix2 s c)
      = acc (ix2 s c) + ∑ k : Fin 8192, if (v4 (ix2 (0 : Fin 1) k)).toInt = (s.val : ℤ) then v10 (ix2 k c) else 0 := by
  unfold k0_pay4
  rw [shapeCast_self, addf_apply, matmul_zero_apply]
  refine congrArg (acc (ix2 s c) + ·) (Finset.sum_congr rfl fun k _ => ?_)
  rw [truncf_apply, truncf_apply, onehot_apply]
  split
  · exact one_mul _
  · exact zero_mul _

/-- Row s of the one-hot sums to the number of the tile's rows whose id is s. -/
theorem rowsum_apply (v4 : Vec Ideal S1x8192 .i32) (s : Fin 256) (hφ : FKind.Formats .f32)
    (hacc : (0x00000000#32 : BitVec 32) = 0x00000000#32) :
    multiReduction .add [1] S256 (k0_pay3 (F := Ideal) v4) 0x00000000#32 reduces_S256x8192_S256 hφ hacc (ix1 s)
      = ∑ k : Fin 8192, if (v4 (ix2 (0 : Fin 1) k)).toInt = (s.val : ℤ) then (1 : EReal) else 0 := by
  refine (Ideal.multiReduction_add_single (k0_pay3 (F := Ideal) v4) 0x00000000#32 reduces_S256x8192_S256 hφ hacc (ix1 s)).trans ?_
  refine Finset.sum_congr rfl fun k _ => ?_
  have e : reduces_S256x8192_S256.lift (ix1 s) k = ix2 s k :=
    funext fun ax => Fin.ext (by
      match ax with
      | ⟨0, _⟩ => rfl
      | ⟨1, _⟩ => rfl)
  rw [e]
  exact onehot_apply v4 s k

/-- What the body leaves in the counts accumulator holding `acc`: `acc` plus, at s, the number of the tile's rows whose
    id is s. -/
theorem counts_apply (v4 : Vec Ideal S1x8192 .i32) (acc : Vec Ideal S256x1 .f32) (s : Fin 256) (u : Fin 1) :
    k0_pay5 (F := Ideal) v4 acc (ix2 s u)
      = acc (ix2 s u) + ∑ k : Fin 8192, if (v4 (ix2 (0 : Fin 1) k)).toInt = (s.val : ℤ) then (1 : EReal) else 0 := by
  unfold k0_pay5
  rw [shapeCast_self, addf_apply, Cert.LibColumn.shapeCast_a_a1_apply]
  exact congrArg (acc (ix2 s u) + ·) (rowsum_apply v4 s _ _)

/-- The reset stores zero into the sums accumulator, -/
theorem reset_sums_apply (i : S256x128.Idx) : k0_pay1 (F := Ideal) i = 0 := by
  unfold k0_pay1
  rw [shapeCast_self]
  exact Ideal.ofBits_zero_f32

/-- and into the counts accumulator. -/
theorem reset_counts_apply (i : S256x1.Idx) : k0_pay2 (F := Ideal) i = 0 := by
  unfold k0_pay2
  rw [shapeCast_self]
  exact Ideal.ofBits_zero_f32

/-- The flush writes the sums accumulator out under a leading unit axis, -/
theorem out_sums_apply (acc : Vec Ideal S256x128 .f32) (u : Fin 1) (s : Fin 256) (c : Fin 128) :
    k0_pay6 (F := Ideal) acc (ix3 u s c) = acc (ix2 s c) := by
  unfold k0_pay6
  exact shapeCast_ab_1ab_apply acc _ u s c

/-- and the counts accumulator likewise. -/
theorem out_counts_apply (acc : Vec Ideal S256x1 .f32) (u : Fin 1) (s : Fin 256) (v : Fin 1) :
    k0_pay7 (F := Ideal) acc (ix3 u s v) = acc (ix2 s v) := by
  unfold k0_pay7
  exact shapeCast_ab_1ab_apply acc _ u s v

end Cert.KernelIdeal.SegMean

end
-- ==== Proof.Spec.lean ====
/-
  The segment mean, as one function of the two arguments.

  For a matrix x of 1048576 rows and 128 columns and a vector of 1048576 segment ids, the mean of segment s in column c
  is the sum of x (r, c) over the rows r whose id, read as a signed integer, is s, divided by the number of such rows
  or by one when there is none. Ids outside [0, 256) belong to no segment.

  The rows are cut into 128 tiles of 8192 consecutive rows: row k of tile n is row 8192 n + k, and every row is in
  exactly one tile, so a sum over the rows is the sum over the tiles of the sums over each tile's rows, in any
  grouping (addition of extended reals is commutative and associative).
-/
import Idealize.ShloMosaic.PureOps.Ideal
import Idealize.ShloMosaic.Lib.ValueIdx

noncomputable section

namespace Cert.SegMean

open Idealize.ShloMosaic Idealize.ShloMosaic.ValueIdx

/-- Row k of tile n. (Total in n: only tiles 0 to 127 are used, where no wrap occurs.) -/
def row (n : ℕ) (k : Fin 8192) : Fin 1048576 := ⟨(n * 8192 + k.val) % 1048576, Nat.mod_lt _ (by norm_num)⟩

theorem row_val (n : ℕ) (hn : n < 128) (k : Fin 8192) : (row n k).val = n * 8192 + k.val := by
  have := k.isLt
  show (n * 8192 + k.val) % 1048576 = _
  exact Nat.mod_eq_of_lt (by omega)

/-- The 128 tiles of 8192 rows are the 1048576 rows. -/
theorem sum_tiles {M : Type*} [AddCommMonoid M] (g : Fin 1048576 → M) :
    ∑ n ∈ Finset.range 128, ∑ k : Fin 8192, g (row n k) = ∑ r, g r := by
  rw [← Fin.sum_univ_eq_sum_range (fun n => ∑ k : Fin 8192, g (row n k)) 128, ← Fintype.sum_prod_type']
  refine Fintype.sum_equiv (finProdFinEquiv (m := 128) (n := 8192)) _ _ fun p => ?_
  congr 1
  apply Fin.ext
  rw [row_val _ p.1.isLt]
  show p.1.val * 8192 + p.2.val = p.2.val + 8192 * p.1.val
  omega

/-- Two half-ranges of tiles make the whole range. -/
theorem sum_halves {M : Type*} [AddCommMonoid M] (f : ℕ → M) :
    ∑ j ∈ Finset.range 64, f j + ∑ j ∈ Finset.range 64, f (64 + j) = ∑ n ∈ Finset.range 128, f n :=
  (Finset.sum_range_add f 64 64).symm

variable (x : (⟨2, ![1048576, 128]⟩ : Shape).Idx → EReal) (seg : (⟨1, ![1048576]⟩ : Shape).Idx → BitVec 32)

/-- The sum of column c over the rows of segment s. -/
def segSum (s : Fin 256) (c : Fin 128) : EReal :=
  ∑ r : Fin 1048576, if (seg (ix1 r)).toInt = (s.val : ℤ) then x (ix2 r c) else 0

/-- The number of rows of segment s. -/
def segCount (s : Fin 256) : EReal :=
  ∑ r : Fin 1048576, if (seg (ix1 r)).toInt = (s.val : ℤ) then (1 : EReal) else 0

/-- Tile n's part of the sum, -/
def tileSum (n : ℕ) (s : Fin 256) (c : Fin 128) : EReal :=
  ∑ k : Fin 8192, if (seg (ix1 (row n k))).toInt = (s.val : ℤ) then x (ix2 (row n k) c) else 0

/-- and of the count. -/
def tileCount (n : ℕ) (s : Fin 256) : EReal :=
  ∑ k : Fin 8192, if (seg (ix1 (row n k))).toInt = (s.val : ℤ) then (1 : EReal) else 0

theorem sum_tileSum (s : Fin 256) (c : Fin 128) : ∑ n ∈ Finset.range 128, tileSum x seg n s c = segSum x seg s c :=
  sum_tiles fun r => if (seg (ix1 r)).toInt = (s.val : ℤ) then x (ix2 r c) else 0

theorem sum_tileCount (s : Fin 256) : ∑ n ∈ Finset.range 128, tileCount seg n s = segCount seg s :=
  sum_tiles fun r => if (seg (ix1 r)).toInt = (s.val : ℤ) then (1 : EReal) else 0

/-- The segment mean: the sum over the count, the count raised to one where a segment is empty. -/
def segMean : (⟨2, ![256, 128]⟩ : Shape).Idx → EReal :=
  fun i => Ideal.div (segSum x seg (i 0) (i 1)) (max (segCount seg (i 0)) 1)

end Cert.SegMean

end
-- ==== Proof.KernelValue.lean ====
/-
  What the idealized kernel's run leaves in its two result arrays, and what the host operations after it make of them.

  The grid has 128 points: point t works on tile t (rows 8192 t to 8192 t + 8191), and core p = t / 64 owns points
  64 p to 64 p + 63. Each core's two accumulators start from zero at its first point and add one tile's contribution
  per point, so after point t they hold the contributions of tiles 64 (t / 64) to t. At a core's last point they are
  written to row p of the two result arrays. The host then adds the two rows, raises the count to at least one, and
  divides: the sum over all 128 tiles over the count over all 128 tiles, which is the segment mean.
-/
import proofs.«425436_j3779571220815_2_alg».proof.Proof.Gen.KernelIdeal.Frame
import proofs.«425436_j3779571220815_2_alg».proof.Proof.Pieces
import proofs.«425436_j3779571220815_2_alg».proof.Proof.Payload
import proofs.«425436_j3779571220815_2_alg».proof.Proof.Spec
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.SegMean

open Cert.KernelIdeal Cert.KernelIdeal.Gen Idealize.ShloMosaic Idealize.ShloMosaic.TcCoe Idealize.SL.Sem
open Idealize.ShloMosaic.ValueIdx Cert.SegMean
open Idealize.ShloMosaic.Pipeline (Dat)

variable (m : (ℓ : Loc nD τ sig) → Buf (Elt Ideal) ℓ) (ρ : Dev nD → PrngReg)

/-! ## The arrays the region finds, and the blocks the points read -/

/-- The matrix as the region finds it, -/
abbrev xarr (c : Dev nD) : Vec Ideal S1048576x128 .f32 := V m c main_arg0
/-- the ids as the region finds them (one row of 1048576), -/
abbrev sarr (c : Dev nD) : Vec Ideal S1x1048576 .i32 := V m c main_v0
/-- and as a vector. -/
abbrev seg1 (c : Dev nD) : (⟨1, ![1048576]⟩ : Shape).Idx → BitVec 32 := fun i => sarr m c (ix2 (0 : Fin 1) (i 0))
/-- Point t's tile of the matrix -/
abbrev xblk (c : Dev nD) (t : Fin cfg0.N) : Vec Ideal S8192x128 .f32 := iblk m c 0 t
/-- and of the ids. -/
abbrev sblk (c : Dev nD) (t : Fin cfg0.N) : Vec Ideal S1x8192 .i32 := iblk m c 1 t

/-- Point t's blocks are block t of the matrix's rows and of the ids' columns. -/
theorem idx_in : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, win0_0.index t (0 : Fin 2) = t.val ∧ win0_0.index t (1 : Fin 2) = 0
    ∧ win0_1.index t (0 : Fin 2) = 0 ∧ win0_1.index t (1 : Fin 2) = t.val)

theorem t_lt (t : Fin cfg0.N) : t.val < 128 := lt_of_lt_of_eq t.isLt (show cfg0.N = 128 from N_0)

/-- Entry (k, d) of point t's tile is the matrix at row 8192 t + k. -/
theorem xblk_apply (c : Dev nD) (t : Fin cfg0.N) (k : Fin 8192) (d : Fin 128) :
    xblk m c t (ix2 k d) = xarr m c (ix2 (row t.val k) d) := by
  unfold xblk iblk
  rw [View.read_apply]
  show V m c main_arg0 _ = V m c main_arg0 _
  congr 1
  funext a
  apply Fin.ext
  match a with
  | ⟨0, _⟩ =>
    show win0_0.index t 0 * 8192 + 1 * k.val = (row t.val k).val
    rw [(idx_in t).1, row_val _ (t_lt t)]; omega
  | ⟨1, _⟩ =>
    show win0_0.index t 1 * 128 + 1 * d.val = d.val
    rw [(idx_in t).2.1]; omega

/-- Entry k of point t's ids is the id of row 8192 t + k. -/
theorem sblk_apply (c : Dev nD) (t : Fin cfg0.N) (k : Fin 8192) :
    sblk m c t (ix2 (0 : Fin 1) k) = seg1 m c (ix1 (row t.val k)) := by
  unfold sblk iblk
  rw [View.read_apply]
  show V m c main_v0 _ = V m c main_v0 _
  congr 1
  funext a
  apply Fin.ext
  match a with
  | ⟨0, _⟩ =>
    show win0_1.index t 0 * 1 + 1 * 0 = 0
    rw [(idx_in t).2.2.1]
  | ⟨1, _⟩ =>
    show win0_1.index t 1 * 8192 + 1 * k.val = (row t.val k).val
    rw [(idx_in t).2.2.2, row_val _ (t_lt t)]; omega

/-- The tile's contribution to a sum, in the blocks' own terms, -/
theorem tile_sum_eq (c : Dev nD) (t : Fin cfg0.N) (s : Fin 256) (d : Fin 128) :
    (∑ k : Fin 8192, if (sblk m c t (ix2 (0 : Fin 1) k)).toInt = (s.val : ℤ) then xblk m c t (ix2 k d) else 0)
      = tileSum (xarr m c) (seg1 m c) t.val s d :=
  Finset.sum_congr rfl fun k _ => by rw [sblk_apply, xblk_apply]

/-- and to a count. -/
theorem tile_count_eq (c : Dev nD) (t : Fin cfg0.N) (s : Fin 256) :
    (∑ k : Fin 8192, if (sblk m c t (ix2 (0 : Fin 1) k)).toInt = (s.val : ℤ) then (1 : EReal) else 0)
      = tileCount (seg1 m c) t.val s :=
  Finset.sum_congr rfl fun k _ => by rw [sblk_apply]

/-! ## One point's step -/

/-- The sums accumulator after point n, -/
abbrev accS (c : Dev nD) (n : ℕ) (hn : n < cfg0.N) : Vec Ideal S256x128 .f32 := (outsAt0 m c n hn).2.2.1
/-- the counts accumulator, -/
abbrev accC (c : Dev nD) (n : ℕ) (hn : n < cfg0.N) : Vec Ideal S256x1 .f32 := (outsAt0 m c n hn).2.2.2
/-- and the two outputs' staging buffers. -/
abbrev outS (c : Dev nD) (n : ℕ) (hn : n < cfg0.N) : Vec Ideal S1x256x128 .f32 := (outsAt0 m c n hn).1
abbrev outC (c : Dev nD) (n : ℕ) (hn : n < cfg0.N) : Vec Ideal S1x256x1 .f32 := (outsAt0 m c n hn).2.1

/-- At a core's first point the accumulators hold that tile's contribution alone (zero plus it). -/
theorem step_first (c : Dev nD) (t : Fin cfg0.N) (h0 : t.val % 64 = 0) (s : Fin 256) (d : Fin 128) (u : Fin 1) :
    accS m c t.val t.isLt (ix2 s d) = tileSum (xarr m c) (seg1 m c) t.val s d
      ∧ accC m c t.val t.isLt (ix2 s u) = tileCount (seg1 m c) t.val s := by
  have h1 : ¬t.val % 64 = 63 := by omega
  have e := outsAt0_A m c t h0 h1
  constructor
  · show (outsAt0 m c t.val t.isLt).2.2.1 (ix2 s d) = _
    rw [e]
    dsimp only
    refine (congrFun (sums_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (sblk m c t)) (ix2 s d)).trans ?_
    rw [sums_apply, reset_sums_apply, zero_add]
    exact tile_sum_eq m c t s d
  · show (outsAt0 m c t.val t.isLt).2.2.2 (ix2 s u) = _
    rw [e]
    dsimp only
    refine (congrFun (counts_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (sblk m c t)) (ix2 s u)).trans ?_
    rw [counts_apply, reset_counts_apply, zero_add]
    exact tile_count_eq m c t s

/-- At every other point they hold what the point before left plus this tile's contribution. -/
theorem step_next (c : Dev nD) (t : Fin cfg0.N) (h0 : ¬t.val % 64 = 0) (s : Fin 256) (d : Fin 128) (u : Fin 1) :
    accS m c t.val t.isLt (ix2 s d)
        = accS m c (t.val - 1) (Nat.lt_of_le_of_lt (Nat.sub_le _ _) t.isLt) (ix2 s d) + tileSum (xarr m c) (seg1 m c) t.val s d
      ∧ accC m c t.val t.isLt (ix2 s u)
        = accC m c (t.val - 1) (Nat.lt_of_le_of_lt (Nat.sub_le _ _) t.isLt) (ix2 s u) + tileCount (seg1 m c) t.val s := by
  by_cases h1 : t.val % 64 = 63
  · have e := outsAt0_C m c t h0 h1
    constructor
    · show (outsAt0 m c t.val t.isLt).2.2.1 (ix2 s d) = _
      rw [e]
      dsimp only
      refine (congrFun (sums_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (sblk m c t) (accS m c (t.val - 1) (Nat.lt_of_le_of_lt (Nat.sub_le _ _) t.isLt)) (accC m c (t.val - 1) (Nat.lt_of_le_of_lt (Nat.sub_le _ _) t.isLt))) (ix2 s d)).trans ?_
      rw [sums_apply]
      exact congrArg (_ + ·) (tile_sum_eq m c t s d)
    · show (outsAt0 m c t.val t.isLt).2.2.2 (ix2 s u) = _
      rw [e]
      dsimp only
      refine (congrFun (counts_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (sblk m c t) (accS m c (t.val - 1) (Nat.lt_of_le_of_lt (Nat.sub_le _ _) t.isLt)) (accC m c (t.val - 1) (Nat.lt_of_le_of_lt (Nat.sub_le _ _) t.isLt))) (ix2 s u)).trans ?_
      rw [counts_apply]
      exact congrArg (_ + ·) (tile_count_eq m c t s)
  · have e := outsAt0_B m c t h0 h1
    constructor
    · show (outsAt0 m c t.val t.isLt).2.2.1 (ix2 s d) = _
      rw [e]
      dsimp only
      refine (congrFun (sums_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (sblk m c t) (accS m c (t.val - 1) (Nat.lt_of_le_of_lt (Nat.sub_le _ _) t.isLt)) (accC m c (t.val - 1) (Nat.lt_of_le_of_lt (Nat.sub_le _ _) t.isLt))) (ix2 s d)).trans ?_
      rw [sums_apply]
      exact congrArg (_ + ·) (tile_sum_eq m c t s d)
    · show (outsAt0 m c t.val t.isLt).2.2.2 (ix2 s u) = _
      rw [e]
      dsimp only
      refine (congrFun (counts_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (sblk m c t) (accS m c (t.val - 1) (Nat.lt_of_le_of_lt (Nat.sub_le _ _) t.isLt)) (accC m c (t.val - 1) (Nat.lt_of_le_of_lt (Nat.sub_le _ _) t.isLt))) (ix2 s u)).trans ?_
      rw [counts_apply]
      exact congrArg (_ + ·) (tile_count_eq m c t s)

/-- At a core's last point the outputs' staging buffers receive the accumulators as that point leaves them. -/
theorem out_last (c : Dev nD) (t : Fin cfg0.N) (h1 : t.val % 64 = 63) (w : Fin 1) (s : Fin 256) (d : Fin 128) (u : Fin 1) :
    outS m c t.val t.isLt (ix3 w s d) = accS m c t.val t.isLt (ix2 s d)
      ∧ outC m c t.val t.isLt (ix3 w s u) = accC m c t.val t.isLt (ix2 s u) := by
  have h0 : ¬t.val % 64 = 0 := by omega
  have e := outsAt0_C m c t h0 h1
  constructor
  · show (outsAt0 m c t.val t.isLt).1 (ix3 w s d) = (outsAt0 m c t.val t.isLt).2.2.1 (ix2 s d)
    rw [e]
    dsimp only
    refine (congrFun (out_sums_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (sblk m c t) (accS m c (t.val - 1) (Nat.lt_of_le_of_lt (Nat.sub_le _ _) t.isLt)) (accC m c (t.val - 1) (Nat.lt_of_le_of_lt (Nat.sub_le _ _) t.isLt))) (ix3 w s d)).trans ?_
    rw [out_sums_apply]
    exact (congrFun (sums_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (sblk m c t) (accS m c (t.val - 1) (Nat.lt_of_le_of_lt (Nat.sub_le _ _) t.isLt)) (accC m c (t.val - 1) (Nat.lt_of_le_of_lt (Nat.sub_le _ _) t.isLt))) (ix2 s d)).symm
  · show (outsAt0 m c t.val t.isLt).2.1 (ix3 w s u) = (outsAt0 m c t.val t.isLt).2.2.2 (ix2 s u)
    rw [e]
    dsimp only
    refine (congrFun (out_counts_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (sblk m c t) (accS m c (t.val - 1) (Nat.lt_of_le_of_lt (Nat.sub_le _ _) t.isLt)) (accC m c (t.val - 1) (Nat.lt_of_le_of_lt (Nat.sub_le _ _) t.isLt))) (ix3 w s u)).trans ?_
    rw [out_counts_apply]
    exact (congrFun (counts_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (sblk m c t) (accS m c (t.val - 1) (Nat.lt_of_le_of_lt (Nat.sub_le _ _) t.isLt)) (accC m c (t.val - 1) (Nat.lt_of_le_of_lt (Nat.sub_le _ _) t.isLt))) (ix2 s u)).symm

/-! ## The accumulators in closed form -/

/-- After point n a core's accumulators hold the contributions of its tiles up to n: tiles n - n % 64 to n. -/
theorem acc_closed (c : Dev nD) : ∀ (n : ℕ) (hn : n < cfg0.N) (s : Fin 256) (d : Fin 128) (u : Fin 1),
    accS m c n hn (ix2 s d) = ∑ j ∈ Finset.range (n % 64 + 1), tileSum (xarr m c) (seg1 m c) (n - n % 64 + j) s d
      ∧ accC m c n hn (ix2 s u) = ∑ j ∈ Finset.range (n % 64 + 1), tileCount (seg1 m c) (n - n % 64 + j) s := by
  intro n
  induction n with
  | zero =>
    intro hn s d u
    obtain ⟨f1, f2⟩ := step_first m c ⟨0, hn⟩ rfl s d u
    constructor
    · rw [Finset.sum_range_one]; exact f1
    · rw [Finset.sum_range_one]; exact f2
  | succ n ih =>
    intro hn s d u
    by_cases h0 : (n + 1) % 64 = 0
    · obtain ⟨f1, f2⟩ := step_first m c ⟨n + 1, hn⟩ h0 s d u
      constructor
      · rw [h0, Finset.sum_range_one]; exact f1
      · rw [h0, Finset.sum_range_one]; exact f2
    · obtain ⟨st1, st2⟩ := step_next m c ⟨n + 1, hn⟩ h0 s d u
      obtain ⟨ih1, ih2⟩ := ih (Nat.lt_of_succ_lt hn) s d u
      have hm : (n + 1) % 64 = n % 64 + 1 := by omega
      have hb : n + 1 - (n % 64 + 1) = n - n % 64 := by omega
      have he : n - n % 64 + (n % 64 + 1) = n + 1 := by have := Nat.mod_le n 64; omega
      constructor
      · rw [hm, hb, Finset.sum_range_succ, he, ← ih1]; exact st1
      · rw [hm, hb, Finset.sum_range_succ, he, ← ih2]; exact st2

/-! ## The two result arrays after the run -/

/-- Row p of the sums array is core p's total: the contributions of tiles 64 p to 64 p + 63; -/
def coreSum (c : Dev nD) : Vec Ideal S2x256x128 .f32 :=
  fun i => ∑ j ∈ Finset.range 64, tileSum (xarr m c) (seg1 m c) (64 * (i 0).val + j) (i 1) (i 2)
/-- row p of the counts array likewise. -/
def coreCount (c : Dev nD) : Vec Ideal S2x256x1 .f32 :=
  fun i => ∑ j ∈ Finset.range 64, tileCount (seg1 m c) (64 * (i 0).val + j) (i 1)

/-- Point t's output blocks are row t / 64 of the result arrays. -/
theorem idx_out : ∀ t : Fin cfg0.N, win0_2.index t (0 : Fin 3) = t.val / 64 ∧ win0_2.index t (1 : Fin 3) = 0
    ∧ win0_2.index t (2 : Fin 3) = 0 ∧ win0_3.index t (0 : Fin 3) = t.val / 64 ∧ win0_3.index t (1 : Fin 3) = 0
    ∧ win0_3.index t (2 : Fin 3) = 0 :=
  (by decide +kernel : ∀ t : Fin grid0.N, win0_2.index t (0 : Fin 3) = t.val / 64 ∧ win0_2.index t (1 : Fin 3) = 0
    ∧ win0_2.index t (2 : Fin 3) = 0 ∧ win0_3.index t (0 : Fin 3) = t.val / 64 ∧ win0_3.index t (1 : Fin 3) = 0
    ∧ win0_3.index t (2 : Fin 3) = 0)

/-- What a core's last point writes back to the sums array is its row of the core totals. -/
theorem flushed_sums (c : Dev nD) (t : Fin cfg0.N) (hf : (cfg0.win 2).flush t = true) :
    (dats m 0 c).flushed 2 t = ((cfg0.win 2).blk t).view.read (Elt Ideal) (coreSum m c) := by
  have h1 : t.val % 64 = 63 := (flush0_2 t).mp hf
  show (cfg0.win 2).cut (grid0.coords t) ((dats m 0 c).after 2 t) = _
  rw [after0_2]
  funext y
  obtain ⟨w, s, d, rfl⟩ : ∃ (w : Fin 1) (s : Fin 256) (d : Fin 128), y = ix3 w s d := ⟨y 0, y 1, y 2, eq_ix3 y⟩
  rw [View.read_apply]
  show outS m c t.val t.isLt (ix3 w s d) = coreSum m c (((cfg0.win 2).blk t).view.emb (ix3 w s d))
  rw [(out_last m c t h1 w s d 0).1, (acc_closed m c t.val t.isLt s d 0).1, h1]
  have e0 : ((((cfg0.win 2).blk t).view.emb (ix3 w s d)) 0).val = t.val / 64 := by
    show win0_2.index t 0 * 1 + 1 * w.val = _
    rw [(idx_out t).1]; omega
  have e1 : (((cfg0.win 2).blk t).view.emb (ix3 w s d)) 1 = s := Fin.ext (by
    show win0_2.index t 1 * 256 + 1 * s.val = _
    rw [(idx_out t).2.1]; omega)
  have e2 : (((cfg0.win 2).blk t).view.emb (ix3 w s d)) 2 = d := Fin.ext (by
    show win0_2.index t 2 * 128 + 1 * d.val = _
    rw [(idx_out t).2.2.1]; omega)
  unfold coreSum
  rw [e0, e1, e2]
  refine Finset.sum_congr rfl fun j _ => ?_
  congr 1
  omega

/-- And to the counts array. -/
theorem flushed_counts (c : Dev nD) (t : Fin cfg0.N) (hf : (cfg0.win 3).flush t = true) :
    (dats m 0 c).flushed 3 t = ((cfg0.win 3).blk t).view.read (Elt Ideal) (coreCount m c) := by
  have h1 : t.val % 64 = 63 := (flush0_3 t).mp hf
  show (cfg0.win 3).cut (grid0.coords t) ((dats m 0 c).after 3 t) = _
  rw [after0_3]
  funext y
  obtain ⟨w, s, u, rfl⟩ : ∃ (w : Fin 1) (s : Fin 256) (u : Fin 1), y = ix3 w s u := ⟨y 0, y 1, y 2, eq_ix3 y⟩
  rw [View.read_apply]
  show outC m c t.val t.isLt (ix3 w s u) = coreCount m c (((cfg0.win 3).blk t).view.emb (ix3 w s u))
  rw [(out_last m c t h1 w s 0 u).2, (acc_closed m c t.val t.isLt s 0 u).2, h1]
  have e0 : ((((cfg0.win 3).blk t).view.emb (ix3 w s u)) 0).val = t.val / 64 := by
    show win0_3.index t 0 * 1 + 1 * w.val = _
    rw [(idx_out t).2.2.2.1]; omega
  have e1 : (((cfg0.win 3).blk t).view.emb (ix3 w s u)) 1 = s := Fin.ext (by
    show win0_3.index t 1 * 256 + 1 * s.val = _
    rw [(idx_out t).2.2.2.2.1]; omega)
  unfold coreCount
  rw [e0, e1]
  refine Finset.sum_congr rfl fun j _ => ?_
  congr 1
  omega

/-- The point that writes row p back. -/
def lastPoint (p : Fin 2) : Fin cfg0.N := ⟨64 * p.val + 63, by rw [show cfg0.N = 128 from N_0]; omega⟩

/-- The sums array ends at the core totals: row p is written back by point 64 p + 63. -/
theorem final_sums (c : Dev nD) : (dats m 0 c).arrAt 2 cfg0.N = coreSum m c :=
  (dats m 0 c).arrAt_eq_of_cover 2 (coreSum m c) (flushed_sums m c) fun i => by
    have hp : (i 0 : ℕ) < 2 := (i 0).isLt
    have hs : (i 1 : ℕ) < 256 := (i 1).isLt
    have hd : (i 2 : ℕ) < 128 := (i 2).isLt
    refine ⟨lastPoint ⟨(i 0).val, hp⟩, (flush0_2 _).mpr (by show (64 * (i 0).val + 63) % 64 = 63; omega), ?_⟩
    show i ∈ ((View.whole main_v1_0).slice (win0_2.rect (lastPoint ⟨(i 0).val, hp⟩))).set
    rw [View.set_slice_whole, Rect.mem_set_unit]
    obtain ⟨q0, q1, q2, -, -, -⟩ := idx_out (lastPoint ⟨(i 0).val, hp⟩)
    have hq : (lastPoint ⟨(i 0).val, hp⟩).val / 64 = (i 0).val := by show (64 * (i 0).val + 63) / 64 = _; omega
    intro a
    match a with
    | ⟨0, _⟩ =>
      show win0_2.index (lastPoint ⟨(i 0).val, hp⟩) 0 * 1 ≤ (i 0 : ℕ) ∧ (i 0 : ℕ) < win0_2.index (lastPoint ⟨(i 0).val, hp⟩) 0 * 1 + 1
      rw [q0, hq]; omega
    | ⟨1, _⟩ =>
      show win0_2.index (lastPoint ⟨(i 0).val, hp⟩) 1 * 256 ≤ (i 1 : ℕ) ∧ (i 1 : ℕ) < win0_2.index (lastPoint ⟨(i 0).val, hp⟩) 1 * 256 + 256
      rw [q1]; omega
    | ⟨2, _⟩ =>
      show win0_2.index (lastPoint ⟨(i 0).val, hp⟩) 2 * 128 ≤ (i 2 : ℕ) ∧ (i 2 : ℕ) < win0_2.index (lastPoint ⟨(i 0).val, hp⟩) 2 * 128 + 128
      rw [q2]; omega

/-- The counts array ends at the core counts. -/
theorem final_counts (c : Dev nD) : (dats m 0 c).arrAt 3 cfg0.N = coreCount m c :=
  (dats m 0 c).arrAt_eq_of_cover 3 (coreCount m c) (flushed_counts m c) fun i => by
    have hp : (i 0 : ℕ) < 2 := (i 0).isLt
    have hs : (i 1 : ℕ) < 256 := (i 1).isLt
    have hd : (i 2 : ℕ) < 1 := (i 2).isLt
    refine ⟨lastPoint ⟨(i 0).val, hp⟩, (flush0_3 _).mpr (by show (64 * (i 0).val + 63) % 64 = 63; omega), ?_⟩
    show i ∈ ((View.whole main_v1_1).slice (win0_3.rect (lastPoint ⟨(i 0).val, hp⟩))).set
    rw [View.set_slice_whole, Rect.mem_set_unit]
    obtain ⟨-, -, -, q0, q1, q2⟩ := idx_out (lastPoint ⟨(i 0).val, hp⟩)
    have hq : (lastPoint ⟨(i 0).val, hp⟩).val / 64 = (i 0).val := by show (64 * (i 0).val + 63) / 64 = _; omega
    intro a
    match a with
    | ⟨0, _⟩ =>
      show win0_3.index (lastPoint ⟨(i 0).val, hp⟩) 0 * 1 ≤ (i 0 : ℕ) ∧ (i 0 : ℕ) < win0_3.index (lastPoint ⟨(i 0).val, hp⟩) 0 * 1 + 1
      rw [q0, hq]; omega
    | ⟨1, _⟩ =>
      show win0_3.index (lastPoint ⟨(i 0).val, hp⟩) 1 * 256 ≤ (i 1 : ℕ) ∧ (i 1 : ℕ) < win0_3.index (lastPoint ⟨(i 0).val, hp⟩) 1 * 256 + 256
      rw [q1]; omega
    | ⟨2, _⟩ =>
      show win0_3.index (lastPoint ⟨(i 0).val, hp⟩) 2 * 1 ≤ (i 2 : ℕ) ∧ (i 2 : ℕ) < win0_3.index (lastPoint ⟨(i 0).val, hp⟩) 2 * 1 + 1
      rw [q2]; omega

/-! ## The host operations around the region -/

/-- The matrix reaches the region as launched. -/
theorem xarr_eq (c : Dev nD) : xarr m c = m ((c : Thread nD τ).loc main_arg0) := V_main_arg0 m c

/-- The ids reach the region as one row of the launched vector, -/
theorem sarr_eq (c : Dev nD) :
    sarr m c = shapeCast S1x1048576 (m ((c : Thread nD τ).loc main_arg1)) shapeCasts_S1048576_S1x1048576 := by
  show StableHlo.after hostOps0 (fun b => m (c, b)) (Proc.devRef .tc main_v0) = _
  after_results
  rfl

/-- so read as a vector they are the launched vector. -/
theorem seg1_eq (c : Dev nD) : seg1 m c = m ((c : Thread nD τ).loc main_arg1) := by
  funext i
  obtain ⟨r, rfl⟩ : ∃ r : Fin 1048576, i = ix1 r := ⟨i 0, eq_ix1 i⟩
  show sarr m c (ix2 (0 : Fin 1) r) = _
  rw [sarr_eq]
  exact shapeCast_a_1a_apply _ shapeCasts_S1048576_S1x1048576 (0 : Fin 1) r

/-- The host operations after the region, as one function of the two result arrays: the two rows of each added, the
    count raised to at least one and repeated across the columns, the quotient. -/
def tail (A2 : Vec Ideal S2x256x128 .f32) (A3 : Vec Ideal S2x256x1 .f32) : Vec Ideal S256x128 .f32 :=
  Host.divf
    (addf
      (shapeCast S256x128 (extractStridedSlice S1x256x128 ![0, 0, 0] A2 slices_S2x256x128_S1x256x128_0_0_0) shapeCasts_S1x256x128_S256x128)
      (shapeCast S256x128 (extractStridedSlice S1x256x128 ![1, 0, 0] A2 slices_S2x256x128_S1x256x128_1_0_0) shapeCasts_S1x256x128_S256x128))
    (broadcastInDim S256x128 ![0, 1] bcast_S256x1_S256x128_0_1
      (maximumf
        (addf
          (shapeCast S256x1 (extractStridedSlice S1x256x1 ![0, 0, 0] A3 slices_S2x256x1_S1x256x1_0_0_0) shapeCasts_S1x256x1_S256x1)
          (shapeCast S256x1 (extractStridedSlice S1x256x1 ![1, 0, 0] A3 slices_S2x256x1_S1x256x1_1_0_0) shapeCasts_S1x256x1_S256x1))
        (broadcastInDim S256x1 ![] bcast_S_S256x1 (constant (F := Ideal) S_ .f32 0x3F800000#32))))

/-- The result buffer after those operations is that function of the two arrays' buffers. -/
theorem tail_of (W : Valuation τ sig (Elt Ideal)) :
    StableHlo.after hostOps1 W (Proc.devRef .tc main_v15)
      = tail (W (Proc.devRef .tc main_v1_0)) (W (Proc.devRef .tc main_v1_1)) := by
  after_results
  rfl

/-- Row p of a 2 x 256 x 128 array, sliced out and viewed 256 x 128, at (s, d). -/
theorem row_sums_apply (A2 : Vec Ideal S2x256x128 .f32) (p : Fin 2) (off : Fin 3 → ℕ) (hoff : off = ![p.val, 0, 0])
    (h : S2x256x128.Slices off S1x256x128) (s : Fin 256) (d : Fin 128) :
    shapeCast S256x128 (extractStridedSlice S1x256x128 off A2 h) shapeCasts_S1x256x128_S256x128 (ix2 s d) = A2 (ix3 p s d) := by
  subst hoff
  rw [shapeCast_1ab_ab_apply]
  exact extractStridedSlice_apply _ A2 h _ (ix3 p s d) fun a => by
    match a with
    | ⟨0, _⟩ => show p.val = p.val + 0; omega
    | ⟨1, _⟩ => show s.val = 0 + s.val; omega
    | ⟨2, _⟩ => show d.val = 0 + d.val; omega

/-- Row p of a 2 x 256 x 1 array likewise, at (s, u). -/
theorem row_counts_apply (A3 : Vec Ideal S2x256x1 .f32) (p : Fin 2) (off : Fin 3 → ℕ) (hoff : off = ![p.val, 0, 0])
    (h : S2x256x1.Slices off S1x256x1) (s : Fin 256) (u : Fin 1) :
    shapeCast S256x1 (extractStridedSlice S1x256x1 off A3 h) shapeCasts_S1x256x1_S256x1 (ix2 s u) = A3 (ix3 p s u) := by
  subst hoff
  rw [shapeCast_1ab_ab_apply]
  exact extractStridedSlice_apply _ A3 h _ (ix3 p s u) fun a => by
    match a with
    | ⟨0, _⟩ => show p.val = p.val + 0; omega
    | ⟨1, _⟩ => show s.val = 0 + s.val; omega
    | ⟨2, _⟩ => show u.val = 0 + u.val; omega

/-- The literal one is one. -/
theorem one_eq : Ideal.ofBits .f32 0x3F800000#32 = 1 := IdealRules.sign_bit.ideal_onePat .f32

/-- The tail at (s, d): the two rows' sums over the two rows' counts raised to at least one. -/
theorem tail_apply (A2 : Vec Ideal S2x256x128 .f32) (A3 : Vec Ideal S2x256x1 .f32) (s : Fin 256) (d : Fin 128) :
    tail A2 A3 (ix2 s d)
      = Ideal.div (A2 (ix3 (0 : Fin 2) s d) + A2 (ix3 (1 : Fin 2) s d))
          (max (A3 (ix3 (0 : Fin 2) s (0 : Fin 1)) + A3 (ix3 (1 : Fin 2) s (0 : Fin 1))) 1) := by
  have hq : ∀ a b : FVec Ideal S256x128 .f32, Host.divf a b (ix2 s d) = Ideal.div (a (ix2 s d)) (b (ix2 s d)) :=
    fun _ _ => rfl
  have r0 := row_sums_apply A2 0 ![0, 0, 0] rfl slices_S2x256x128_S1x256x128_0_0_0 s d
  have r1 := row_sums_apply A2 1 ![1, 0, 0] rfl slices_S2x256x128_S1x256x128_1_0_0 s d
  have c0 := row_counts_apply A3 0 ![0, 0, 0] rfl slices_S2x256x1_S1x256x1_0_0_0 s (0 : Fin 1)
  have c1 := row_counts_apply A3 1 ![1, 0, 0] rfl slices_S2x256x1_S1x256x1_1_0_0 s (0 : Fin 1)
  unfold tail
  rw [hq, addf_apply, r0, r1,
    broadcastInDim_apply _ bcast_S256x1_S256x128_0_1 _ (ix2 s d) (ix2 s (0 : Fin 1)) (fun a => by
      match a with
      | ⟨0, _⟩ => show s.val = if (256 : ℕ) = 1 then 0 else s.val; rw [if_neg (by decide)]
      | ⟨1, _⟩ => show 0 = if (1 : ℕ) = 1 then 0 else d.val; rw [if_pos rfl]),
    maximumf_apply, addf_apply, c0, c1,
    broadcastInDim_apply _ bcast_S_S256x1 _ (ix2 s (0 : Fin 1)) ix0 (fun a => a.elim0), constant_apply, one_eq]

/-! ## The result -/

/-- The result buffer ends at the segment mean of the launched arguments. -/
theorem result_val (c : Dev nD) :
    Pipeline.afterTail₀ cfgs (dats m) 0 (V0 m) [hostOps1] c main_v15
      = segMean (m ((c : Thread nD τ).loc main_arg0)) (m ((c : Thread nD τ).loc main_arg1)) := by
  have a2 : Pipeline.withArrays (cfgs 0).spec c (V0 m c) (fun w => (dats m 0 c).arrAt w (cfgs 0).N) (Proc.devRef .tc main_v1_0)
      = coreSum m c := (Pipeline.withArrays_arr spec0 launch0.win.arr_inj c _ _ 2).trans (final_sums m c)
  have a3 : Pipeline.withArrays (cfgs 0).spec c (V0 m c) (fun w => (dats m 0 c).arrAt w (cfgs 0).N) (Proc.devRef .tc main_v1_1)
      = coreCount m c := (Pipeline.withArrays_arr spec0 launch0.win.arr_inj c _ _ 3).trans (final_counts m c)
  unfold Pipeline.afterTail₀
  show StableHlo.after hostOps1 _ (Proc.devRef .tc main_v15) = _
  rw [tail_of, a2, a3, ← xarr_eq m c, ← seg1_eq m c]
  funext i
  obtain ⟨s, d, rfl⟩ : ∃ (s : Fin 256) (d : Fin 128), i = ix2 s d := ⟨i 0, i 1, eq_ix2 i⟩
  rw [tail_apply]
  show Ideal.div
      (∑ j ∈ Finset.range 64, tileSum (xarr m c) (seg1 m c) (64 * 0 + j) s d
        + ∑ j ∈ Finset.range 64, tileSum (xarr m c) (seg1 m c) (64 * 1 + j) s d)
      (max (∑ j ∈ Finset.range 64, tileCount (seg1 m c) (64 * 0 + j) s
        + ∑ j ∈ Finset.range 64, tileCount (seg1 m c) (64 * 1 + j) s) 1)
    = Ideal.div (segSum (xarr m c) (seg1 m c) s d) (max (segCount (seg1 m c) s) 1)
  simp only [Nat.mul_zero, Nat.zero_add, Nat.mul_one]
  rw [sum_halves (fun n => tileSum (xarr m c) (seg1 m c) n s d), sum_halves (fun n => tileCount (seg1 m c) n s),
    sum_tileSum, sum_tileCount]

/-- The idealized kernel's run: the result at the segment mean of the arguments, the arguments unchanged. -/
theorem run : θ_run defs (onTc (τ := τ) (main (F := Ideal))) ⟨m, fun _ => 0, ρ⟩ fun r => ∀ c : Dev nD,
      r.2.mem ((c : Thread nD τ).loc main_v15)
        = segMean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v15 (Pipeline.mem_restRefs_of main_v15 (by decide) (by decide))).trans (result_val m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.SegMean

end
-- ==== Proof.RefValue.lean ====
/-
  The reference's result, index by index: it is the segment mean.

  The first scatter adds each row of the matrix into the row of a zero 256 x 128 array that its id names, so entry
  (s, c) ends at zero plus the sum of column c over the rows whose id is s; the second scatter does the same with a
  vector of ones, so entry s ends at zero plus the number of those rows. The count is raised to at least one,
  repeated across the 128 columns, and divides the sum.
-/
import proofs.«425436_j3779571220815_2_alg».proof.Proof.Gen.ReferenceIdeal.Run
import proofs.«425436_j3779571220815_2_alg».proof.Proof.Gen.ReferenceIdeal.Read
import proofs.«425436_j3779571220815_2_alg».proof.Proof.LibSegmentScatter
import proofs.«425436_j3779571220815_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SegMean Cert.LibSegmentScatter

variable (x0 : (⟨S1048576x128, .f32⟩ : BufTy).Contents (Elt Ideal)) (x1 : (⟨S1048576, .i32⟩ : BufTy).Contents (Elt Ideal))

/-- The literal one is one. -/
theorem one_eq : Ideal.ofBits .f32 0x3F800000#32 = 1 := IdealRules.sign_bit.ideal_onePat .f32

/-- The ids as the scatters read them: row r of the one-column array is id r. -/
theorem ids_apply (r : Fin 1048576) : val_main_v1 (F := Ideal) x1 (ix2 r (0 : Fin 1)) = x1 (ix1 r) := by
  rw [val_main_v1_apply]
  exact congrArg x1 (funext fun a => by match a with | ⟨0, _⟩ => rfl)

/-- The first scatter at (s, c): the operand there plus column c over the rows whose id is s. -/
theorem scat_rows (v0 : FVec Ideal S256x128 .f32) (idx : IVec S1048576x1 32) (upd : FVec Ideal S1048576x128 .f32)
    (s : Fin 256) (c : Fin 128) :
    Host.scatterAdd (F := Ideal) scatter_S256x128_S1048576x1_S1048576x128_1_0_0_1 v0 idx upd (ix2 s c)
      = v0 (ix2 s c) + ∑ r : Fin 1048576, if (idx (ix2 r (0 : Fin 1))).toInt = (s.val : ℤ) then upd (ix2 r c) else 0 :=
  rows_scatterAdd_apply scatter_S256x128_S1048576x1_S1048576x128_1_0_0_1_wf v0 idx upd s c

/-- The second scatter at s: the operand there plus the updates of the rows whose id is s. -/
theorem scat_vec (v0 : FVec Ideal S256 .f32) (idx : IVec S1048576x1 32) (upd : FVec Ideal S1048576 .f32) (s : Fin 256) :
    Host.scatterAdd (F := Ideal) scatter_S256_S1048576x1_S1048576_n_0_0_1 v0 idx upd (ix1 s)
      = v0 (ix1 s) + ∑ r : Fin 1048576, if (idx (ix2 r (0 : Fin 1))).toInt = (s.val : ℤ) then upd (ix1 r) else 0 :=
  vec_scatterAdd_apply scatter_S256_S1048576x1_S1048576_n_0_0_1_wf v0 idx upd s

/-- The zero the scatters start from. -/
theorem zero_sums (i : S256x128.Idx) : val_main_v0 (F := Ideal) i = 0 := by
  rw [val_main_v0_apply, val_main_cst_apply]
  exact Ideal.ofBits_zero_f32

theorem zero_counts (i : S256.Idx) : val_main_v4 (F := Ideal) i = 0 := by
  rw [val_main_v4_apply, val_main_cst_1_apply]
  exact Ideal.ofBits_zero_f32

/-- The ones the second scatter adds. -/
theorem ones_apply (i : S1048576.Idx) : val_main_v3 (F := Ideal) i = 1 := by
  rw [val_main_v3_apply, val_main_cst_0_apply]
  exact one_eq

/-- The scattered sums: zero plus the segment's sum. -/
theorem sums_apply (s : Fin 256) (c : Fin 128) :
    val_main_v2 (F := Ideal) x0 x1 (ix2 s c) = 0 + segSum x0 x1 s c :=
  (scat_rows (val_main_v0 (F := Ideal)) (val_main_v1 (F := Ideal) x1) x0 s c).trans (by
    rw [zero_sums]
    exact congrArg (0 + ·) (Finset.sum_congr rfl fun r _ => by rw [ids_apply]))

/-- The scattered counts: zero plus the segment's number of rows. -/
theorem counts_apply (s : Fin 256) :
    val_main_v6 (F := Ideal) x1 (ix1 s) = 0 + segCount x1 s :=
  (scat_vec (val_main_v4 (F := Ideal)) (val_main_v5 (F := Ideal) x1) (val_main_v3 (F := Ideal)) s).trans (by
    rw [zero_counts]
    exact congrArg (0 + ·) (Finset.sum_congr rfl fun r _ => by
      rw [show val_main_v5 (F := Ideal) x1 (ix2 r (0 : Fin 1)) = x1 (ix1 r) from ids_apply x1 r, ones_apply]))

/-- The reference's result is the segment mean of its two arguments. -/
theorem result_eq : val_main_v11 (F := Ideal) x0 x1 = segMean x0 x1 := by
  funext i
  obtain ⟨s, c, rfl⟩ : ∃ (s : Fin 256) (c : Fin 128), i = ix2 s c := ⟨i 0, i 1, eq_ix2 i⟩
  rw [val_main_v11_apply, sums_apply, val_main_v10_apply, val_main_v9_apply, val_main_v8_apply]
  have e : idx_main_v9 (idx_main_v10 (ix2 s c)) = ix1 s := funext fun a => by match a with | ⟨0, _⟩ => rfl
  rw [e, counts_apply, val_main_v7_apply, val_main_cst_2_apply]
  show Ideal.div (0 + segSum x0 x1 s c) (max (0 + segCount x1 s) (Ideal.ofBits .f32 0x3F800000#32)) = _
  rw [one_eq, zero_add, zero_add]
  rfl

end Cert.ReferenceIdeal.RefValue

end
-- ==== Proof.lean ====
/-
  The segment mean over sorted or unsorted ids, computed two ways, is one function at the exact values.

  The kernel turns the scatter into a matrix product: per tile of 8192 rows it forms the 256 x 8192 one-hot matrix of
  the tile's ids and multiplies it with the tile, accumulating the 256 x 128 partial sums over the 64 tiles each of
  two cores owns, and accumulates the one-hot's row sums as the counts; after the kernel the two cores' partial sums
  and counts are added, the count is raised to at least one, and the quotient is taken. The reference scatters the
  rows, and a vector of ones, into zero arrays by id and takes the same quotient.

  At the exact values both are, at (s, c), the sum of column c over the rows whose id read as a signed integer is s,
  over the number of those rows or one: a one-hot entry times a value is the value or zero, a sum over the rows is
  the sum over the 128 tiles of the sums over each tile's rows, and an id outside [0, 256) matches no one-hot row and
  lands nowhere in the scatter. No property of the inputs is used beyond what the frames take.

  Modules: Spec (the mean as a function, and the tiles), LibSegmentScatter (a scatter-add of rows by id read at an
  index), LibColumn (a vector viewed as a column), Payload (the body's arithmetic at an index), Pieces (what each of
  the body's three cases leaves), KernelValue (the kernel's two result arrays and the host operations after it),
  RefValue (the reference's result).
-/
import proofs.«425436_j3779571220815_2_alg».proof.Defs
import proofs.«425436_j3779571220815_2_alg».proof.Proof.Gen.Kernel.Frame
import proofs.«425436_j3779571220815_2_alg».proof.Proof.Gen.KernelIdeal.Frame
import proofs.«425436_j3779571220815_2_alg».proof.Proof.Gen.ReferenceIdeal
import proofs.«425436_j3779571220815_2_alg».proof.Proof.Gen.ReferenceIdeal.Run
import proofs.«425436_j3779571220815_2_alg».proof.Proof.Gen.ReferenceIdeal.Read
import proofs.«425436_j3779571220815_2_alg».proof.Proof.Gen.Pre_finite_inputs
import proofs.«425436_j3779571220815_2_alg».proof.Proof.KernelValue
import proofs.«425436_j3779571220815_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at the segment mean of their arguments, and the arguments agree. -/
theorem algebraic : Cert.algebraic_KernelIdeal_ReferenceIdeal := by
  intro m ρ m' ρ' _ hagree
  refine ⟨fun c => Cert.SegMean.segMean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.SegMean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
